-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000x64 : Shape := ⟨2, ![500000, 64]⟩
abbrev S512x64 : Shape := ⟨2, ![512, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S512x64 : S_.BroadcastsInDim S512x64 (![] : Fin 0 → Fin S512x64.rank)
  reducesTo_S512x64_S_d0_1 : S512x64.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S500000 : S_.BroadcastsInDim S500000 (![] : Fin 0 → Fin S500000.rank)
  reducesTo_S500000_S_d0 : S500000.ReducesTo [0] S_

variable [Facts]

def fn_part2 {F : FTy → Type} [FloatOps F] (main_arg4 : IVec S500000 32) (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_c_14 : IVec S_ 32 := constantI S_ 32 0#32
  let main_v39 : IVec S500000 32 := broadcastInDim S500000 ![] bcast_S_S500000 main_c_14
  let main_v40 : IVec S500000 1 := cmpi .sge main_arg4 main_v39
  let main_c_15 : IVec S_ 1 := constantI S_ 1 1#1
  let main_v41 : IVec S_ 1 := (fun x v => Host.reduce IntOp.andi x v reducesTo_S500000_S_d0 h_S_) main_v40 main_c_15
  let main_v42 : IVec S_ 1 := andi main_v38 main_v41
  main_v42

def fn_part1 {F : FTy → Type} [FloatOps F] (main_arg4 : IVec S500000 32) (main_arg5 : FVec F S384x256 .f32) (main_arg6 : FVec F S256 .f32) (main_arg7 : FVec F S256x256 .f32) (main_arg8 : FVec F S256 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S384x256 .f32 := Host.absf main_arg5
  let main_cst_6 : FVec F S_ .f32 := constant S_ .f32 0x7F800000#32
  let main_v20 : FVec F S384x256 .f32 := broadcastInDim S384x256 ![] bcast_S_S384x256 main_cst_6
  let main_v21 : IVec S384x256 1 := cmpf .olt main_v19 main_v20
  let main_c_7 : IVec S_ 1 := constantI S_ 1 1#1
  let main_v22 : IVec S_ 1 := (fun x v => Host.reduce IntOp.andi x v reducesTo_S384x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg4 main_arg8 main_v33

def fn {F : FTy → Type} [FloatOps F] (main_arg0 : FVec F S500000x128 .f32) (main_arg1 : FVec F S500000x128 .f32) (main_arg2 : FVec F S500000x64 .f32) (main_arg3 : FVec F S512x64 .f32) (main_arg4 : IVec S500000 32) (main_arg5 : FVec F S384x256 .f32) (main_arg6 : FVec F S256 .f32) (main_arg7 : FVec F S256x256 .f32) (main_arg8 : FVec F S256 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S500000x64 .f32 := Host.absf main_arg2
  let main_cst_2 : FVec F S_ .f32 := constant S_ .f32 0x7F800000#32
  let main_v10 : FVec F S500000x64 .f32 := broadcastInDim S500000x64 ![] bcast_S_S500000x64 main_cst_2
  let main_v11 : IVec S500000x64 1 := cmpf .olt main_v9 main_v10
  let main_c_3 : IVec S_ 1 := constantI S_ 1 1#1
  let main_v12 : IVec S_ 1 := (fun x v => Host.reduce IntOp.andi x v reducesTo_S500000x64_S_d0_1 h_S_) main_v11 main_c_3
  let main_v13 : IVec S_ 1 := andi main_v8 main_v12
  let main_v14 : FVec F S512x64 .f32 := Host.absf main_arg3
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg4 main_arg5 main_arg6 main_arg7 main_arg8 main_v13 main_v16
-- ==== Kernel.lean ====
abbrev S500000x128 : Shape := ⟨2, ![500000, 128]⟩
abbrev S500000x64 : Shape := ⟨2, ![500000, 64]⟩
abbrev S512x64 : Shape := ⟨2, ![512, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩
abbrev S125x1x4000 : Shape := ⟨3, ![125, 1, 4000]⟩
abbrev S1x256 : Shape := ⟨2, ![1, 256]⟩
abbrev S500000x256 : Shape := ⟨2, ![500000, 256]⟩
abbrev S4000x128 : Shape := ⟨2, ![4000, 128]⟩
abbrev S4000x64 : Shape := ⟨2, ![4000, 64]⟩
abbrev S1x1x4000 : Shape := ⟨3, ![1, 1, 4000]⟩
abbrev S4000x256 : Shape := ⟨2, ![4000, 256]⟩
abbrev S1x4000 : Shape := ⟨2, ![1, 4000]⟩
abbrev S512x4000 : Shape := ⟨2, ![512, 4000]⟩
abbrev S128x256 : Shape := ⟨2, ![128, 256]⟩
abbrev S64x256 : Shape := ⟨2, ![64, 256]⟩

abbrev nBuf : Space → Nat
  | .hbm => 24
  | .vmem => 15
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S512x64, .f32⟩
  | .hbm, ⟨4, _⟩ => ⟨S500000, .i32⟩
  | .hbm, ⟨5, _⟩ => ⟨S384x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S125x1x4000, .i32⟩
  | .hbm, ⟨18, _⟩ => ⟨S512x64, .bf16⟩
  | .hbm, ⟨19, _⟩ => ⟨S384x256, .bf16⟩
  | .hbm, ⟨20, _⟩ => ⟨S256x256, .bf16⟩
  | .hbm, ⟨21, _⟩ => ⟨S1x256, .f32⟩
  | .hbm, ⟨22, _⟩ => ⟨S1x256, .f32⟩
  | .hbm, ⟨23, _⟩ => ⟨S500000x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x64, .f32⟩
  | .local _ .vmem, ⟨5, _⟩ => ⟨S4000x64, .f32⟩
  | .local _ .vmem, ⟨6, _⟩ => ⟨S1x1x4000, .i32⟩
  | .local _ .vmem, ⟨7, _⟩ => ⟨S1x1x4000, .i32⟩
  | .local _ .vmem, ⟨8, _⟩ => ⟨S512x64, .bf16⟩
  | .local _ .vmem, ⟨9, _⟩ => ⟨S384x256, .bf16⟩
  | .local _ .vmem, ⟨10, _⟩ => ⟨S1x256, .f32⟩
  | .local _ .vmem, ⟨11, _⟩ => ⟨S256x256, .bf16⟩
  | .local _ .vmem, ⟨12, _⟩ => ⟨S1x256, .f32⟩
  | .local _ .vmem, ⟨13, _⟩ => ⟨S4000x256, .f32⟩
  | .local _ .vmem, ⟨14, _⟩ => ⟨S4000x256, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4000 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S500000 : S_.BroadcastsInDim S500000 (![] : Fin 0 → Fin S500000.rank)
  shapeCasts_S500000_S125x1x4000 : S500000.ShapeCasts S125x1x4000
  bitsLt_bf16_f32 : FTy.bits .bf16 < FTy.bits .f32
  shapeCasts_S256_S1x256 : S256.ShapeCasts S1x256
  inb_S1x1x4000_S1x1x4000_0_0_0 : ∀ a, (![0, 0, 0] : Fin 3 → Nat) a + S1x1x4000.size a ≤ S1x1x4000.size a
  h_S1x1x4000 : 0 < S1x1x4000.numel
  shapeCasts_S1x1x4000_S1x4000 : S1x1x4000.ShapeCasts S1x4000
  iota_S512x4000_d0_w32 : S512x4000.Iotas .tc 32 [0]
  broadcasts_S1x4000_S512x4000 : S1x4000.Broadcasts S512x4000
  natLt_1_32 : 1 < 32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S4000x128_S4000x128_0_0 : ∀ a, (![0, 0] : Fin 2 → Nat) a + S4000x128.size a ≤ S4000x128.size a
  h_S4000x128 : 0 < S4000x128.numel
  inb_S4000x64_S4000x64_0_0 : ∀ a, (![0, 0] : Fin 2 → Nat) a + S4000x64.size a ≤ S4000x64.size a
  h_S4000x64 : 0 < S4000x64.numel
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  slices_S384x256_o0_0_S128x256 : S384x256.Slices ![0, 0] S128x256
  slices_S384x256_o128_0_S128x256 : S384x256.Slices ![128, 0] S128x256
  slices_S384x256_o256_0_S64x256 : S384x256.Slices ![256, 0] S64x256
  slices_S384x256_o320_0_S64x256 : S384x256.Slices ![320, 0] S64x256
  broadcasts_S1x256_S4000x256 : S1x256.Broadcasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S4000x256_S4000x256_0_0 : ∀ a, (![0, 0] : Fin 2 → Nat) a + S4000x256.size a ≤ S4000x256.size a
  h_S4000x256 : 0 < S4000x256.numel
  dot_S512x4000_S512x64_S4000x64_0_0_1_1_n_n_wf : DotDims.WF S512x4000 S512x64 S4000x64 [0] [0] [1] [1] [] []
  dot_S4000x128_S128x256_S4000x256_1_0_0_1_n_n_wf : DotDims.WF S4000x128 S128x256 S4000x256 [1] [0] [0] [1] [] []
  dot_S4000x64_S64x256_S4000x256_1_0_0_1_n_n_wf : DotDims.WF S4000x64 S64x256 S4000x256 [1] [0] [0] [1] [] []
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S500000x128.size a
  hwx0_0 : ∀ i : grid0.Coords, EltTy.bits .f32 = 32 ∨ (Rect.block (s := S500000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S500000x128.size a
  hwx0_1 : ∀ i : grid0.Coords, EltTy.bits .f32 = 32 ∨ (Rect.block (s := S500000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S500000x64.size a
  hwx0_2 : ∀ i : grid0.Coords, EltTy.bits .f32 = 32 ∨ (Rect.block (s := S500000x64) S4000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4000.size a ≤ S125x1x4000.size a
  hwx0_3 : ∀ i : grid0.Coords, EltTy.bits .i32 = 32 ∨ (Rect.block (s := S125x1x4000) S1x1x4000.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x64.size a ≤ S512x64.size a
  hwx0_4 : ∀ i : grid0.Coords, EltTy.bits .bf16 = 32 ∨ (Rect.block (s := S512x64) S512x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384x256.size a ≤ S384x256.size a
  hwx0_5 : ∀ i : grid0.Coords, EltTy.bits .bf16 = 32 ∨ (Rect.block (s := S384x256) S384x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x256.size a ≤ S500000x256.size a
  hwx0_9 : ∀ i : grid0.Coords, EltTy.bits .f32 = 32 ∨ (Rect.block (s := S500000x256) S4000x256.size (cc0_transform_9 i) (hinb0_9 i)).WholeWords (EltTy.packing .f32)

variable [Facts₀]

def dot_S512x4000_S512x64_S4000x64_0_0_1_1_n_n : DotDims S512x4000 S512x64 S4000x64 where
  lhsContracting := [0]
  rhsContracting := [0]
  lhsNonContracting := [1]
  rhsNonContracting := [1]
  lhsBatch := []
  rhsBatch := []
  wf := dot_S512x4000_S512x64_S4000x64_0_0_1_1_n_n_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x64_S64x256_S4000x256_1_0_0_1_n_n : DotDims S4000x64 S64x256 S4000x256 where
  lhsContracting := [1]
  rhsContracting := [0]
  lhsNonContracting := [0]
  rhsNonContracting := [1]
  lhsBatch := []
  rhsBatch := []
  wf := dot_S4000x64_S64x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x4000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S384x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S4000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x128 : Shape := ⟨2, ![500000, 128]⟩
abbrev S500000x64 : Shape := ⟨2, ![500000, 64]⟩
abbrev S512x64 : Shape := ⟨2, ![512, 64]⟩
abbrev S500000 : Shape := ⟨1, ![500000]⟩
abbrev S384x256 : Shape := ⟨2, ![384, 256]⟩
abbrev S256 : Shape := ⟨1, ![256]⟩
abbrev S256x256 : Shape := ⟨2, ![256, 256]⟩
abbrev S_ : Shape := ⟨0, ![]⟩
abbrev S500000x1 : Shape := ⟨2, ![500000, 1]⟩
abbrev S500000x384 : Shape := ⟨2, ![500000, 384]⟩
abbrev S500000x256 : Shape := ⟨2, ![500000, 256]⟩
abbrev S1x256 : Shape := ⟨2, ![1, 256]⟩

abbrev nBuf : Space → Nat
  | .hbm => 30
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S500000x64, .f32⟩
  | .hbm, ⟨3, _⟩ => ⟨S512x64, .f32⟩
  | .hbm, ⟨4, _⟩ => ⟨S500000, .i32⟩
  | .hbm, ⟨5, _⟩ => ⟨S384x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x64, .f32⟩
  | .hbm, ⟨18, _⟩ => ⟨S500000x384, .f32⟩
  | .hbm, ⟨19, _⟩ => ⟨S500000x256, .f32⟩
  | .hbm, ⟨20, _⟩ => ⟨S1x256, .f32⟩
  | .hbm, ⟨21, _⟩ => ⟨S500000x256, .f32⟩
  | .hbm, ⟨22, _⟩ => ⟨S500000x256, .f32⟩
  | .hbm, ⟨23, _⟩ => ⟨S_, .f32⟩
  | .hbm, ⟨24, _⟩ => ⟨S500000x256, .f32⟩
  | .hbm, ⟨25, _⟩ => ⟨S500000x256, .f32⟩
  | .hbm, ⟨26, _⟩ => ⟨S500000x256, .f32⟩
  | .hbm, ⟨27, _⟩ => ⟨S1x256, .f32⟩
  | .hbm, ⟨28, _⟩ => ⟨S500000x256, .f32⟩
  | .hbm, ⟨29, _⟩ => ⟨S500000x256, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x64_S500000x64_S500000x384_d1 : Shape.Concatenates [S500000x128, S500000x128, S500000x64, S500000x64] S500000x384 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  gather_S512x64_S500000x1_S500000x64_1_0_n_n_0_1_164_wf : GatherDims.WF S512x64 S500000x1 S500000x64 [1] [0] [] [0] [] 1 ![1, 64]
  dot_S500000x384_S384x256_S500000x256_1_0_0_1_n_n_wf : DotDims.WF S500000x384 S384x256 S500000x256 [1] [0] [0] [1] [] []
  dot_S500000x256_S256x256_S500000x256_1_0_0_1_n_n_wf : DotDims.WF S500000x256 S256x256 S500000x256 [1] [0] [0] [1] [] []

variable [Facts₀]

def gather_S512x64_S500000x1_S500000x64_1_0_n_n_0_1_164 : GatherDims S512x64 S500000x1 S500000x64 where
  offsetDims := [1]
  collapsedSliceDims := [0]
  operandBatchingDims := []
  startIndicesBatchingDims := []
  startIndexMap := [0]
  indexVectorDim := 1
  sliceSizes := ![1, 64]
  wf := gather_S512x64_S500000x1_S500000x64_1_0_n_n_0_1_164_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf

class Facts : Prop extends Facts₀ where

variable [Facts]
-- ==== Proof.EdgeMlp.lean ====
/-
  What both programs compute, stated once over the argument arrays; no program is imported here.

  An edge `t` of a batch of graphs carries the features of its two end nodes (`src`, `dest`: 128 numbers each) and
  its own (`edge`: 64), and reads the 64 global features of the graph it belongs to: row `batch t` of the table `u`
  (512 rows, one per graph). The four are laid side by side, 384 columns (`feat`), and go through a perceptron of
  two layers (`mlp`):
      h[t, k]   = max (∑ k' < 384, x[t, k'] · W1[k', k] + b1[k]) 0
      out[t, q] = ∑ k < 256, h[t, k] · W2[k, q] + b2[q].
  A graph id from 512 on reads the table's last row (`row`): ids are read the way an array reads an index past its end.

  `sum_feat`: the sum over the 384 columns is the sum of its four bands (128 + 128 + 64 + 64 columns). Only
  commutativity and associativity of the sum are used, so it holds on the extended reals with no finiteness.
-/
import Idealize.ShloMosaic.PureOps.Ideal
import Idealize.ShloMosaic.Lib.ValueIdx

noncomputable section

open scoped BigOperators

namespace Cert.EdgeMlp

open Idealize.ShloMosaic Idealize.ShloMosaic.ValueIdx

/-- The table row a graph id reads: the id itself up to 511, the last row beyond. -/
def row (b : BitVec 32) : Fin 512 := ⟨min b.toInt.toNat 511, by omega⟩

/-- An edge's 384 features: source node, destination node, the edge's own, its graph's. -/
def feat (s d : Fin 128 → EReal) (e g : Fin 64 → EReal) (k : Fin 384) : EReal :=
  if h0 : k.val < 128 then s ⟨k.val, h0⟩
  else if h1 : k.val < 256 then d ⟨k.val - 128, by omega⟩
  else if h2 : k.val < 320 then e ⟨k.val - 256, by omega⟩
  else g ⟨k.val - 320, by omega⟩

/-- One edge through the two layers, at output column `q`. -/
def mlp (x : Fin 384 → EReal) (W1 : Fin 384 → Fin 256 → EReal) (b1 : Fin 256 → EReal)
    (W2 : Fin 256 → Fin 256 → EReal) (b2 : Fin 256 → EReal) (q : Fin 256) : EReal :=
  (∑ k : Fin 256, max ((∑ k' : Fin 384, x k' * W1 k' k) + b1 k) 0 * W2 k q) + b2 q

/-- The whole result: edge `i 0`, column `i 1`. -/
def out (src dest : (⟨2, ![500000, 128]⟩ : Shape).Idx → EReal) (edge : (⟨2, ![500000, 64]⟩ : Shape).Idx → EReal)
    (u : (⟨2, ![512, 64]⟩ : Shape).Idx → EReal) (batch : (⟨1, ![500000]⟩ : Shape).Idx → BitVec 32)
    (W1 : (⟨2, ![384, 256]⟩ : Shape).Idx → EReal) (b1 : (⟨1, ![256]⟩ : Shape).Idx → EReal)
    (W2 : (⟨2, ![256, 256]⟩ : Shape).Idx → EReal) (b2 : (⟨1, ![256]⟩ : Shape).Idx → EReal) :
    (⟨2, ![500000, 256]⟩ : Shape).Idx → EReal := fun i =>
  mlp (feat (fun k => src (ix2 (i 0) k)) (fun k => dest (ix2 (i 0) k)) (fun k => edge (ix2 (i 0) k))
      (fun k => u (ix2 (row (batch (ix1 (i 0)))) k)))
    (fun a b => W1 (ix2 a b)) (fun k => b1 (ix1 k)) (fun a b => W2 (ix2 a b)) (fun k => b2 (ix1 k)) (i 1)

/-- The sum over the 384 columns, band by band, grouped from the left. -/
theorem sum_feat (s d : Fin 128 → EReal) (e g : Fin 64 → EReal) (w : Fin 384 → EReal) :
    ∑ k : Fin 384, feat s d e g k * w k
      = ((∑ k : Fin 128, s k * w ⟨k.val, by omega⟩ + ∑ k : Fin 128, d k * w ⟨128 + k.val, by omega⟩)
          + ∑ k : Fin 64, e k * w ⟨256 + k.val, by omega⟩)
        + ∑ k : Fin 64, g k * w ⟨320 + k.val, by omega⟩ := by
  have split : ∀ (a b : Nat) (f : Fin (a + b) → EReal),
      ∑ k : Fin (a + b), f k = ∑ k : Fin a, f (Fin.castAdd b k) + ∑ k : Fin b, f (Fin.natAdd a k) :=
    fun a b f => Fin.sum_univ_add f
  have h3 := split 320 64 (fun k => feat s d e g k * w k)
  have h2 := split 256 64 (fun k => feat s d e g (Fin.castAdd 64 k) * w (Fin.castAdd 64 k))
  have h1 := split 128 128 (fun k => feat s d e g (Fin.castAdd 64 (Fin.castAdd 64 k)) * w (Fin.castAdd 64 (Fin.castAdd 64 k)))
  refine h3.trans ?_
  refine congrArg₂ (· + ·) (h2.trans (congrArg₂ (· + ·) (h1.trans (congrArg₂ (· + ·) ?_ ?_)) ?_)) ?_
  · refine Finset.sum_congr rfl fun k _ => ?_
    have hk : (Fin.castAdd 64 (Fin.castAdd 64 (Fin.castAdd 128 k)) : Fin 384).val = k.val := rfl
    unfold feat
    rw [dif_pos (by rw [hk]; exact k.isLt)]
    rfl
  · refine Finset.sum_congr rfl fun k _ => ?_
    have hk : (Fin.castAdd 64 (Fin.castAdd 64 (Fin.natAdd 128 k)) : Fin 384).val = 128 + k.val := rfl
    unfold feat
    rw [dif_neg (by rw [hk]; omega), dif_pos (by rw [hk]; have := k.isLt; omega)]
    refine congrArg₂ (· * ·) (congrArg d (Fin.ext ?_)) rfl
    show 128 + k.val - 128 = k.val
    omega
  · refine Finset.sum_congr rfl fun k _ => ?_
    have hk : (Fin.castAdd 64 (Fin.natAdd 256 k) : Fin 384).val = 256 + k.val := rfl
    unfold feat
    rw [dif_neg (by rw [hk]; omega), dif_neg (by rw [hk]; omega), dif_pos (by rw [hk]; have := k.isLt; omega)]
    refine congrArg₂ (· * ·) (congrArg e (Fin.ext ?_)) rfl
    show 256 + k.val - 256 = k.val
    omega
  · refine Finset.sum_congr rfl fun k _ => ?_
    have hk : (Fin.natAdd 320 k : Fin 384).val = 320 + k.val := rfl
    unfold feat
    rw [dif_neg (by rw [hk]; omega), dif_neg (by rw [hk]; omega), dif_neg (by rw [hk]; omega)]
    refine congrArg₂ (· * ·) (congrArg g (Fin.ext ?_)) rfl
    show 320 + k.val - 320 = k.val
    omega

end Cert.EdgeMlp

end
-- ==== Proof.IndexClamp.lean ====
/-
  Graph ids as 32-bit words: what each program does to an id before it reads the table of global features.

  One program wraps a negative id round (adds 512 to it) and then reads the table the way an array reads any index,
  clamped into its 512 rows; the other first clips the id into 0 … 511 and then picks the row by comparing the clipped
  id with every row number, a sum over the rows of (1 if equal else 0) · row. For an id that is not negative the two
  read the same row, `row b`: the wrap does nothing, and the clip is the clamp.
-/
import proofs.«415689_j48541720379566_3_alg».proof.Proof.EdgeMlp

noncomputable section

open scoped BigOperators

namespace Cert.EdgeMlp

open Idealize.ShloMosaic

/-- The signed comparison "at least 0" being true says the word, read signed, is at least 0. -/
theorem toInt_nonneg_of_sge (b : BitVec 32) (hb : IntOp.cmpi .sge b 0#32 = 1#1) : 0 ≤ b.toInt := by
  have h : (0#32).sle b = true := by
    cases h : (0#32).sle b
    · rw [IntOp.cmpi] at hb
      simp only [h] at hb
      exact absurd hb (by decide)
    · rfl
  rw [BitVec.sle] at h
  simpa using h

/-- A word that is at least 0 is not below 0. -/
theorem slt_zero_of_nonneg (b : BitVec 32) (h0 : 0 ≤ b.toInt) : b.slt 0#32 = false := by
  rw [BitVec.slt]
  simp
  exact h0

/-- The equality comparison is true exactly when the two words are equal. -/
theorem cmpi_eq_one_iff (x y : BitVec 32) : IntOp.cmpi .eq x y = 1#1 ↔ x = y := by
  show BitVec.ofBool (x == y) = 1#1 ↔ x = y
  cases h : (x == y)
  · have hne : x ≠ y := by
      intro e
      rw [e] at h
      simp at h
    exact ⟨fun e => absurd e (by decide), fun e => absurd e hne⟩
  · exact ⟨fun _ => eq_of_beq h, fun _ => rfl⟩

/-- A one-bit word is 1 or 0. -/
theorem bit_cases (c : BitVec 1) : c = 1#1 ∨ c = 0#1 := by
  revert c
  decide

/-- An id that is not negative is not wrapped. -/
theorem wrap_of_nonneg (b : BitVec 32) (hb : IntOp.cmpi .sge b 0#32 = 1#1) :
    Scalar.select (IntOp.cmpi .slt b 0#32) (IntOp.addi b 512#32) b = b := by
  have h := slt_zero_of_nonneg b (toInt_nonneg_of_sge b hb)
  unfold Scalar.select IntOp.cmpi
  simp only [h]
  rfl

/-- The clipped id equals a row number exactly at the row the id reads. -/
theorem clip_eq_iff (b : BitVec 32) (hb : IntOp.cmpi .sge b 0#32 = 1#1) (g : Fin 512) :
    IntOp.cmpi .eq (BitVec.ofNat 32 g.val) (IntOp.minsi 511#32 (IntOp.maxsi 0#32 b)) = 1#1 ↔ g = row b := by
  have h0 := toInt_nonneg_of_sge b hb
  have hg := g.isLt
  have hcond := BitVec.toInt_eq_toNat_cond b
  have hlt := b.isLt
  -- the lower clip does nothing to an id that is at least 0
  have hmax : IntOp.maxsi 0#32 b = b := by
    unfold IntOp.maxsi
    simp only [slt_zero_of_nonneg b h0]
    rfl
  rw [hmax, cmpi_eq_one_iff]
  unfold IntOp.minsi row
  by_cases hs : (511#32).slt b = true
  · -- an id above 511 is clipped to 511, and reads the last row
    rw [if_pos hs]
    rw [BitVec.slt] at hs
    have hs' : (511 : Int) < b.toInt := by simpa using hs
    rw [← BitVec.toNat_inj, Fin.ext_iff]
    simp only [BitVec.toNat_ofNat]
    omega
  · -- an id from 0 to 511 is left alone, and reads its own row
    rw [if_neg hs]
    rw [BitVec.slt] at hs
    have hs' : b.toInt ≤ 511 := by simpa using hs
    rw [← BitVec.toNat_inj, Fin.ext_iff]
    simp only [BitVec.toNat_ofNat]
    omega

/-- Picking a row by comparing the clipped id with every row number: the sum over the rows of the comparison's bit,
    widened to a word and read as a number, times the row's entry, is the entry of the row the id reads. -/
theorem sum_onehot (b : BitVec 32) (hb : IntOp.cmpi .sge b 0#32 = 1#1) (f : Fin 512 → EReal) :
    ∑ g : Fin 512,
      ((((IntOp.cmpi .eq (BitVec.ofNat 32 g.val) (IntOp.minsi 511#32 (IntOp.maxsi 0#32 b))).setWidth 32).toInt : ℝ) : EReal) * f g
      = f (row b) := by
  have one : ((1#1 : BitVec 1).setWidth 32).toInt = 1 := by decide
  have zero : ((0#1 : BitVec 1).setWidth 32).toInt = 0 := by decide
  -- every term but the one at `row b` is 0 · (an entry) = 0, and that one is 1 · (the entry)
  rw [Finset.sum_eq_single (row b)]
  · rw [(clip_eq_iff b hb (row b)).2 rfl, one, Int.cast_one, EReal.coe_one, one_mul]
  · intro g _ hg
    have h0 : IntOp.cmpi .eq (BitVec.ofNat 32 g.val) (IntOp.minsi 511#32 (IntOp.maxsi 0#32 b)) = 0#1 := by
      rcases bit_cases (IntOp.cmpi .eq (BitVec.ofNat 32 g.val) (IntOp.minsi 511#32 (IntOp.maxsi 0#32 b))) with h | h
      · exact absurd ((clip_eq_iff b hb g).1 h) hg
      · exact h
    rw [h0, zero, Int.cast_zero, EReal.coe_zero, zero_mul]
  · intro h
    exact absurd (Finset.mem_univ _) h

end Cert.EdgeMlp

end
-- ==== Proof.PreDecode.lean ====
/-
  What the precondition says about the graph ids: its last conjunct is "every id is at least 0", an `and` over all
  500000 of them of the signed comparison with 0; the whole predicate being true makes that conjunct true, and an
  `and` over an array is true only if every entry is.
-/
import proofs.«415689_j48541720379566_3_alg».proof.Pre_finite_inputs
import Idealize.ShloMosaic.Lib.ReduceAll
import Idealize.ShloMosaic.Lib.StableHlo.Predicate

noncomputable section

namespace Cert.Pre_finite_inputs.Decode

open Idealize.ShloMosaic Cert.Pre_finite_inputs

variable {F : FTy → Type} [FloatOps F] [Cert.Pre_finite_inputs.Facts]

/-- Under the precondition every graph id is at least 0 (as a signed word). -/
theorem batch_nonneg (a0 a1 : FVec F S500000x128 .f32) (a2 : FVec F S500000x64 .f32) (a3 : FVec F S512x64 .f32)
    (a4 : IVec S500000 32) (a5 : FVec F S384x256 .f32) (a6 : FVec F S256 .f32) (a7 : FVec F S256x256 .f32)
    (a8 : FVec F S256 .f32)
    (h : Cert.Pre_finite_inputs.fn (F := F) a0 a1 a2 a3 a4 a5 a6 a7 a8 = fun _ => 1#1) (i : S500000.Idx) :
    IntOp.cmpi .sge (a4 i) 0#32 = 1#1 := by
  -- a rank-0 array has one index
  haveI : Subsingleton S_.Idx := ⟨fun a b => funext fun d => d.elim0⟩
  -- the predicate at its one index is 1; it is an `and` whose last operand is the `and` over all ids of "id ≥ 0"
  have h0 : Cert.Pre_finite_inputs.fn (F := F) a0 a1 a2 a3 a4 a5 a6 a7 a8 (fun d => d.elim0) = 1#1 := congrFun h _
  have h1 := (IntOp.andi_eq_one.1 h0).2
  -- an `and` over an array that is 1 had a 1 at every entry; the entry at `i` compares `a4 i` with the constant 0
  exact Host.reduce_andi_all _ _ _ _ (fun d => d.elim0) h1 i

end Cert.Pre_finite_inputs.Decode

end
-- ==== Proof.RefValue.lean ====
/-
  The reference program's result, read one operation at a time, is the specification.

  The reference lays an edge's four feature bands side by side (a concatenation along the columns), the fourth band
  being the row of the table of global features that the edge's graph id picks (a gather: the id read as a signed
  integer and clamped into the table's 512 rows), and sends the 384 columns through the two layers. Read at a result
  index (t, q) each operation is one arithmetic step on its operands at an index, and the steps compose to
  `Cert.EdgeMlp.out`.
-/
import proofs.«415689_j48541720379566_3_alg».proof.Proof.Gen.ReferenceIdeal.Read
import proofs.«415689_j48541720379566_3_alg».proof.Proof.EdgeMlp

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Idealize.ShloMosaic.ValueIdx

/-- The gather read at (t, k): the table's row at the start index of edge t, read signed and clamped into the
    512 rows (the row `Cert.EdgeMlp.row` names), at column k. -/
theorem gather_apply (x3 : (⟨S512x64, .f32⟩ : BufTy).Contents (Elt Ideal)) (idx : (⟨S500000x1, .i32⟩ : BufTy).Contents (Elt Ideal))
    (t : Fin 500000) (k : Fin 64) :
    Host.gather gather_S512x64_S500000x1_S500000x64_1_0_n_n_0_1_164 x3 idx (ix2 t k)
      = x3 (ix2 (Cert.EdgeMlp.row (idx (ix2 t (0 : Fin 1)))) k) := by
  unfold Host.gather
  congr 1
  funext a
  refine Fin.ext ?_
  match a with
  | ⟨0, _⟩ =>
    -- the row axis is collapsed and indexed: the clamped start index, no batch and no offset coordinate
    show gather_S512x64_S500000x1_S500000x64_1_0_n_n_0_1_164.start (ix2 t k) idx 0
        + gather_S512x64_S500000x1_S500000x64_1_0_n_n_0_1_164.batchCoord (ix2 t k) 0
        + gather_S512x64_S500000x1_S500000x64_1_0_n_n_0_1_164.offCoord (ix2 t k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S512x64_S500000x1_S500000x64_1_0_n_n_0_1_164.startIndexMap from
      List.mem_singleton.mpr rfl)]
    have hsi : gather_S512x64_S500000x1_S500000x64_1_0_n_n_0_1_164.siIdx (ix2 t k)
        ⟨List.idxOf (0 : Fin 2) gather_S512x64_S500000x1_S500000x64_1_0_n_n_0_1_164.startIndexMap,
          List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    -- the column axis is an offset axis: no start index, the result's own column
    show gather_S512x64_S500000x1_S500000x64_1_0_n_n_0_1_164.start (ix2 t k) idx 1
        + gather_S512x64_S500000x1_S500000x64_1_0_n_n_0_1_164.batchCoord (ix2 t k) 1
        + gather_S512x64_S500000x1_S500000x64_1_0_n_n_0_1_164.offCoord (ix2 t k) 1 = k.val
    rw [GatherDims.batchCoord_eq_zero _ _ _ List.not_mem_nil]
    unfold GatherDims.start
    rw [dif_neg (show ¬ (1 : Fin 2) ∈ gather_S512x64_S500000x1_S500000x64_1_0_n_n_0_1_164.startIndexMap by decide)]
    unfold GatherDims.offCoord
    rw [dif_pos (show (1 : Fin 2) ∈ gather_S512x64_S500000x1_S500000x64_1_0_n_n_0_1_164.sKept by decide)]
    have hax : ∀ h, gather_S512x64_S500000x1_S500000x64_1_0_n_n_0_1_164.offsetDims[List.idxOf (1 : Fin 2)
        gather_S512x64_S500000x1_S500000x64_1_0_n_n_0_1_164.sKept]'h = (1 : Fin 2) := by decide
    rw [hax]
    exact Nat.zero_add _

/-- The concatenation read at (t, k): the band that column k falls in, at the column less the bands before it. -/
theorem concat_apply (x0 x1 : (⟨S500000x128, .f32⟩ : BufTy).Contents (Elt Ideal)) (x2 y : (⟨S500000x64, .f32⟩ : BufTy).Contents (Elt Ideal))
    (t : Fin 500000) (k : Fin 384) :
    concatenate S500000x384 1 [⟨S500000x128, x0⟩, ⟨S500000x128, x1⟩, ⟨S500000x64, x2⟩, ⟨S500000x64, y⟩]
        concatenates_S500000x128_S500000x128_S500000x64_S500000x64_S500000x384_d1 (ix2 t k)
      = Cert.EdgeMlp.feat (fun c => x0 (ix2 t c)) (fun c => x1 (ix2 t c)) (fun c => x2 (ix2 t c)) (fun c => y (ix2 t c)) k := by
  have piece := concatenate_apply_piece (t := S500000x384) (1 : Fin S500000x384.rank)
    ([⟨S500000x128, x0⟩, ⟨S500000x128, x1⟩, ⟨S500000x64, x2⟩, ⟨S500000x64, y⟩] : List ((s : Shape) × (s.Idx → EReal)))
    concatenates_S500000x128_S500000x128_S500000x64_S500000x64_S500000x384_d1 (ix2 t k)
  -- off the joined axis a band is read at the row t itself
  have hrow : ∀ {n : Nat} (c : Fin n) (b : Fin 2), b.cast (rfl : 2 = 2) ≠ (1 : Fin 2) →
      ((ix2 t c : (⟨2, ![500000, n]⟩ : Shape).Idx) b).val = ((ix2 t k : S500000x384.Idx) (b.cast rfl)).val := fun c b hb => by
    match b with
    | ⟨0, _⟩ => rfl
    | ⟨1, _⟩ => exact absurd rfl hb
  unfold Cert.EdgeMlp.feat
  by_cases h0 : k.val < 128
  · rw [dif_pos h0]
    exact piece 0 (show 0 < 4 by omega) S500000x128 x0 rfl rfl 0 rfl (ix2 t (⟨k.val, h0⟩ : Fin 128)) (hrow _)
      (Nat.zero_add _)
  · rw [dif_neg h0]
    by_cases h1 : k.val < 256
    · rw [dif_pos h1]
      exact piece 1 (show 1 < 4 by omega) S500000x128 x1 rfl rfl 128 rfl (ix2 t (⟨k.val - 128, by omega⟩ : Fin 128)) (hrow _)
        (show 128 + (k.val - 128) = k.val by omega)
    · rw [dif_neg h1]
      by_cases h2 : k.val < 320
      · rw [dif_pos h2]
        exact piece 2 (show 2 < 4 by omega) S500000x64 x2 rfl rfl 256 rfl (ix2 t (⟨k.val - 256, by omega⟩ : Fin 64)) (hrow _)
          (show 256 + (k.val - 256) = k.val by omega)
      · rw [dif_neg h2]
        have hk := k.isLt
        exact piece 3 (show 3 < 4 by omega) S500000x64 y rfl rfl 320 rfl (ix2 t (⟨k.val - 320, by omega⟩ : Fin 64)) (hrow _)
          (show 320 + (k.val - 320) = k.val by omega)

/-- The start index the gather reads for edge t is the edge's graph id: the reference wraps a negative id round by
    512 first, and on an id that is not negative the wrap does nothing. -/
theorem start_apply (x4 : (⟨S500000, .i32⟩ : BufTy).Contents (Elt Ideal))
    (hw : ∀ i : S500000.Idx, Scalar.select (IntOp.cmpi .slt (x4 i) 0#32) (IntOp.addi (x4 i) 512#32) (x4 i) = x4 i)
    (t : Fin 500000) : val_main_v5 (F := Ideal) x4 (ix2 t (0 : Fin 1)) = x4 (ix1 t) := by
  have e5 : idx_main_v5 (ix2 t (0 : Fin 1)) = ix1 t := funext fun a => by
    match a with
    | ⟨0, _⟩ => rfl
  rw [val_main_v5_apply, e5, val_main_v4_apply, val_main_v1_apply, val_main_v3_apply, val_main_v0_apply,
    val_main_v2_apply, val_main_c_apply, val_main_c_0_apply]
  exact hw (ix1 t)

/-- An edge's 384 columns in the reference are the specification's: the two end nodes' features, the edge's own, and
    the row of the table its graph id reads. -/
theorem row_apply (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal))
    (hw : ∀ i : S500000.Idx, Scalar.select (IntOp.cmpi .slt (x4 i) 0#32) (IntOp.addi (x4 i) 512#32) (x4 i) = x4 i)
    (t : Fin 500000) (k : Fin 384) :
    val_main_v7 (F := Ideal) x0 x1 x2 x3 x4 (ix2 t k)
      = Cert.EdgeMlp.feat (fun c => x0 (ix2 t c)) (fun c => x1 (ix2 t c)) (fun c => x2 (ix2 t c))
          (fun c => x3 (ix2 (Cert.EdgeMlp.row (x4 (ix1 t))) c)) k := by
  have hg : (fun c : Fin 64 => val_main_v6 (F := Ideal) x3 x4 (ix2 t c))
      = fun c => x3 (ix2 (Cert.EdgeMlp.row (x4 (ix1 t))) c) := funext fun c => by
    unfold val_main_v6
    rw [gather_apply, start_apply x4 hw t]
  unfold val_main_v7
  rw [concat_apply, hg]

/-- The hidden layer at (t, k): the 384 columns against column k of the first weights, plus the bias, cut off below
    at 0. -/
theorem hidden_apply (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal))
    (x5 : (⟨S384x256, .f32⟩ : BufTy).Contents (Elt Ideal)) (x6 : (⟨S256, .f32⟩ : BufTy).Contents (Elt Ideal))
    (hw : ∀ i : S500000.Idx, Scalar.select (IntOp.cmpi .slt (x4 i) 0#32) (IntOp.addi (x4 i) 512#32) (x4 i) = x4 i)
    (t : Fin 500000) (k : Fin 256) :
    val_main_v12 (F := Ideal) x0 x1 x2 x3 x4 x5 x6 (ix2 t k)
      = max ((∑ k' : Fin 384, Cert.EdgeMlp.feat (fun c => x0 (ix2 t c)) (fun c => x1 (ix2 t c)) (fun c => x2 (ix2 t c))
          (fun c => x3 (ix2 (Cert.EdgeMlp.row (x4 (ix1 t))) c)) k' * x5 (ix2 k' k)) + x6 (ix1 k)) 0 := by
  have el : ∀ k' : Fin 384, lidx_main_v8 (ix2 t k) k' = ix2 t k' := fun k' => funext fun a => by
    match a with
    | ⟨0, _⟩ => rfl
    | ⟨1, _⟩ => rfl
  have er : ∀ k' : Fin 384, ridx_main_v8 (ix2 t k) k' = ix2 k' k := fun k' => funext fun a => by
    match a with
    | ⟨0, _⟩ => rfl
    | ⟨1, _⟩ => rfl
  have e9 : idx_main_v9 (idx_main_v10 (ix2 t k)) = ix1 k := funext fun a => by
    match a with
    | ⟨0, _⟩ => rfl
  rw [val_main_v12_apply, val_main_v11_apply, val_main_v8_apply, val_main_v10_apply, val_main_v9_apply, e9,
    val_main_call0_v0_apply, val_main_call0_cst_apply]
  simp only [el, er, row_apply x0 x1 x2 x3 x4 hw]
  simp only [Ideal.addf_def, Ideal.maximumf_def, Ideal.ofBits_def, Ideal.ofBits_zero_f32]

/-- The reference's result is the specification. -/
theorem ref_eq (x0 x1 : (⟨S500000x128, .f32⟩ : BufTy).Contents (Elt Ideal)) (x2 : (⟨S500000x64, .f32⟩ : BufTy).Contents (Elt Ideal))
    (x3 : (⟨S512x64, .f32⟩ : BufTy).Contents (Elt Ideal)) (x4 : (⟨S500000, .i32⟩ : BufTy).Contents (Elt Ideal))
    (x5 : (⟨S384x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (hw : ∀ i : S500000.Idx, Scalar.select (IntOp.cmpi .slt (x4 i) 0#32) (IntOp.addi (x4 i) 512#32) (x4 i) = x4 i) :
    val_main_v16 (F := Ideal) x0 x1 x2 x3 x4 x5 x6 x7 x8 = Cert.EdgeMlp.out x0 x1 x2 x3 x4 x5 x6 x7 x8 := by
  funext i
  obtain ⟨t, q, rfl⟩ : ∃ (t : Fin 500000) (q : Fin 256), i = ix2 t q := ⟨i 0, i 1, eq_ix2 i⟩
  have el : ∀ k : Fin 256, lidx_main_v13 (ix2 t q) k = ix2 t k := fun k => funext fun a => by
    match a with
    | ⟨0, _⟩ => rfl
    | ⟨1, _⟩ => rfl
  have er : ∀ k : Fin 256, ridx_main_v13 (ix2 t q) k = ix2 k q := fun k => funext fun a => by
    match a with
    | ⟨0, _⟩ => rfl
    | ⟨1, _⟩ => rfl
  have e14 : idx_main_v14 (idx_main_v15 (ix2 t q)) = ix1 q := funext fun a => by
    match a with
    | ⟨0, _⟩ => rfl
  rw [val_main_v16_apply, val_main_v13_apply, val_main_v15_apply, val_main_v14_apply, e14]
  simp only [el, er, hidden_apply x0 x1 x2 x3 x4 x5 x6 hw]
  simp only [Ideal.addf_def]
  rfl

end Cert.ReferenceIdeal.RefValue

end
-- ==== Proof.KernelTile.lean ====
/-
  The kernel's arithmetic on one tile of 4000 edges, read at one entry.

  A tile's result is, entry by entry, the two-layer perceptron `Cert.EdgeMlp.mlp` of the tile's rows: the first
  layer's sum over the 384 feature columns is accumulated band by band — four matrix products, against rows
  0–127, 128–255, 256–319 and 320–383 of the first weight matrix, added from the left —, and the fourth band's
  factor, an edge's graph features, is itself a matrix product: the comparison of the edge's graph id with every
  row number 0 … 511, as a 0/1 matrix with the ROWS of the table along its first axis, contracted with the table
  over that axis. Changes of float format are the identity on the extended reals, so they disappear.
-/
import proofs.«415689_j48541720379566_3_alg».proof.Proof.Gen.KernelIdeal.Skeleton
import proofs.«415689_j48541720379566_3_alg».proof.Proof.EdgeMlp
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## A matrix product into a zero accumulator, at an entry

Two forms, each generic in the record of dimension numbers `D`, which enters only through where it sends the two
coordinates of an entry and the contraction position (`hl0 … hr1`): rows times columns, and the form that contracts
the FIRST axis of both operands. -/

/-- [n, K] × [K, m], the left operand's columns against the right operand's rows: entry (p, q) is the sum over k of
    l[p, k] · r[k, q]. -/
theorem rows_cols_apply {n K m : Nat} (D : DotDims ⟨2, ![n, K]⟩ ⟨2, ![K, m]⟩ ⟨2, ![n, m]⟩)
    (hr : D.contr.rank = 1) (hs : D.contr.size ⟨0, by omega⟩ = K)
    (hl0 : ∀ (i : (⟨2, ![n, m]⟩ : Shape).Idx) (c : D.contr.Idx), (D.lhsIdx i c 0).val = (i 0).val)
    (hl1 : ∀ (i : (⟨2, ![n, m]⟩ : Shape).Idx) (c : D.contr.Idx), (D.lhsIdx i c 1).val = (c ⟨0, by omega⟩).val)
    (hr0 : ∀ (i : (⟨2, ![n, m]⟩ : Shape).Idx) (c : D.contr.Idx), (D.rhsIdx i c 0).val = (c ⟨0, by omega⟩).val)
    (hr1 : ∀ (i : (⟨2, ![n, m]⟩ : Shape).Idx) (c : D.contr.Idx), (D.rhsIdx i c 1).val = (i 1).val)
    (l : FVec Ideal ⟨2, ![n, K]⟩ .bf16) (r : FVec Ideal ⟨2, ![K, m]⟩ .bf16) (p : Fin n) (q : Fin m) :
    matmul D none l r (constant ⟨2, ![n, m]⟩ .f32 0x00000000#32) (ix2 p q) = ∑ k : Fin K, l (ix2 p k) * r (ix2 k q) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- [K, n] × [K, m], the FIRST axis of both contracted: entry (p, q) is the sum over g of l[g, p] · r[g, q]. -/
theorem rows_rows_apply {n K m : Nat} (D : DotDims ⟨2, ![K, n]⟩ ⟨2, ![K, m]⟩ ⟨2, ![n, m]⟩)
    (hr : D.contr.rank = 1) (hs : D.contr.size ⟨0, by omega⟩ = K)
    (hl0 : ∀ (i : (⟨2, ![n, m]⟩ : Shape).Idx) (c : D.contr.Idx), (D.lhsIdx i c 0).val = (c ⟨0, by omega⟩).val)
    (hl1 : ∀ (i : (⟨2, ![n, m]⟩ : Shape).Idx) (c : D.contr.Idx), (D.lhsIdx i c 1).val = (i 0).val)
    (hr0 : ∀ (i : (⟨2, ![n, m]⟩ : Shape).Idx) (c : D.contr.Idx), (D.rhsIdx i c 0).val = (c ⟨0, by omega⟩).val)
    (hr1 : ∀ (i : (⟨2, ![n, m]⟩ : Shape).Idx) (c : D.contr.Idx), (D.rhsIdx i c 1).val = (i 1).val)
    (l : FVec Ideal ⟨2, ![K, n]⟩ .bf16) (r : FVec Ideal ⟨2, ![K, m]⟩ .bf16) (p : Fin n) (q : Fin m) :
    matmul D none l r (constant ⟨2, ![n, m]⟩ .f32 0x00000000#32) (ix2 p q) = ∑ g : Fin K, l (ix2 g p) * r (ix2 g q) := by
  simp only [matmul]
  rw [Ideal.matmul_constant_zero_apply, ← Equiv.sum_comp (contrEquiv1 D K hr hs).symm]
  refine Finset.sum_congr rfl fun g _ => ?_
  have hg := contrEquiv1_symm_val D K hr hs g
  have el : D.lhsIdx (ix2 p q) ((contrEquiv1 D K hr hs).symm g) = ix2 g p := funext fun a => Fin.ext (by
    match a with
    | ⟨0, _⟩ => exact (hl0 _ _).trans hg
    | ⟨1, _⟩ => exact hl1 _ _)
  have er : D.rhsIdx (ix2 p q) ((contrEquiv1 D K hr hs).symm g) = ix2 g q := funext fun a => Fin.ext (by
    match a with
    | ⟨0, _⟩ => exact (hr0 _ _).trans hg
    | ⟨1, _⟩ => exact hr1 _ _)
  rw [el, er]

/-! ## The kernel's four products -/

/-- A node's band: [4000, 128] × [128, 256]. -/
theorem node_apply (l : FVec Ideal S4000x128 .bf16) (r : FVec Ideal S128x256 .bf16) (p : Fin 4000) (q : Fin 256) :
    matmul dot_S4000x128_S128x256_S4000x256_1_0_0_1_n_n none l r (constant S4000x256 .f32 0x00000000#32) (ix2 p q)
      = ∑ k : Fin 128, l (ix2 p k) * r (ix2 k q) :=
  rows_cols_apply dot_S4000x128_S128x256_S4000x256_1_0_0_1_n_n rfl rfl
    (fun i c => by
      unfold DotDims.lhsIdx
      rw [dif_neg (show ¬(0 : Fin S4000x128.rank) ∈ dot_S4000x128_S128x256_S4000x256_1_0_0_1_n_n.lhsBatch by decide),
        dif_pos (show (0 : Fin S4000x128.rank) ∈ dot_S4000x128_S128x256_S4000x256_1_0_0_1_n_n.lhsNonContracting by decide)]
      rfl)
    (dot_S4000x128_S128x256_S4000x256_1_0_0_1_n_n.lhsIdx_val_of_single rfl)
    (dot_S4000x128_S128x256_S4000x256_1_0_0_1_n_n.rhsIdx_val_of_single rfl)
    (fun i c => by
      unfold DotDims.rhsIdx
      rw [dif_neg (show ¬(1 : Fin S128x256.rank) ∈ dot_S4000x128_S128x256_S4000x256_1_0_0_1_n_n.rhsBatch by decide),
        dif_pos (show (1 : Fin S128x256.rank) ∈ dot_S4000x128_S128x256_S4000x256_1_0_0_1_n_n.rhsNonContracting by decide)]
      rfl)
    l r p q

/-- The edge's own band and the graph's band: [4000, 64] × [64, 256]. -/
theorem small_apply (l : FVec Ideal S4000x64 .bf16) (r : FVec Ideal S64x256 .bf16) (p : Fin 4000) (q : Fin 256) :
    matmul dot_S4000x64_S64x256_S4000x256_1_0_0_1_n_n none l r (constant S4000x256 .f32 0x00000000#32) (ix2 p q)
      = ∑ k : Fin 64, l (ix2 p k) * r (ix2 k q) :=
  rows_cols_apply dot_S4000x64_S64x256_S4000x256_1_0_0_1_n_n rfl rfl
    (fun i c => by
      unfold DotDims.lhsIdx
      rw [dif_neg (show ¬(0 : Fin S4000x64.rank) ∈ dot_S4000x64_S64x256_S4000x256_1_0_0_1_n_n.lhsBatch by decide),
        dif_pos (show (0 : Fin S4000x64.rank) ∈ dot_S4000x64_S64x256_S4000x256_1_0_0_1_n_n.lhsNonContracting by decide)]
      rfl)
    (dot_S4000x64_S64x256_S4000x256_1_0_0_1_n_n.lhsIdx_val_of_single rfl)
    (dot_S4000x64_S64x256_S4000x256_1_0_0_1_n_n.rhsIdx_val_of_single rfl)
    (fun i c => by
      unfold DotDims.rhsIdx
      rw [dif_neg (show ¬(1 : Fin S64x256.rank) ∈ dot_S4000x64_S64x256_S4000x256_1_0_0_1_n_n.rhsBatch by decide),
        dif_pos (show (1 : Fin S64x256.rank) ∈ dot_S4000x64_S64x256_S4000x256_1_0_0_1_n_n.rhsNonContracting by decide)]
      rfl)
    l r p q

/-- The second layer: [4000, 256] × [256, 256]. -/
theorem second_apply (l : FVec Ideal S4000x256 .bf16) (r : FVec Ideal S256x256 .bf16) (p : Fin 4000) (q : Fin 256) :
    matmul dot_S4000x256_S256x256_S4000x256_1_0_0_1_n_n none l r (constant S4000x256 .f32 0x00000000#32) (ix2 p q)
      = ∑ k : Fin 256, l (ix2 p k) * r (ix2 k q) :=
  rows_cols_apply dot_S4000x256_S256x256_S4000x256_1_0_0_1_n_n rfl rfl
    (fun i c => by
      unfold DotDims.lhsIdx
      rw [dif_neg (show ¬(0 : Fin S4000x256.rank) ∈ dot_S4000x256_S256x256_S4000x256_1_0_0_1_n_n.lhsBatch by decide),
        dif_pos (show (0 : Fin S4000x256.rank) ∈ dot_S4000x256_S256x256_S4000x256_1_0_0_1_n_n.lhsNonContracting by decide)]
      rfl)
    (dot_S4000x256_S256x256_S4000x256_1_0_0_1_n_n.lhsIdx_val_of_single rfl)
    (dot_S4000x256_S256x256_S4000x256_1_0_0_1_n_n.rhsIdx_val_of_single rfl)
    (fun i c => by
      unfold DotDims.rhsIdx
      rw [dif_neg (show ¬(1 : Fin S256x256.rank) ∈ dot_S4000x256_S256x256_S4000x256_1_0_0_1_n_n.rhsBatch by decide),
        dif_pos (show (1 : Fin S256x256.rank) ∈ dot_S4000x256_S256x256_S4000x256_1_0_0_1_n_n.rhsNonContracting by decide)]
      rfl)
    l r p q

/-- Picking each edge's row of the table: the 0/1 matrix [512, 4000] against the table [512, 64], over the 512 rows. -/
theorem pick_apply (l : FVec Ideal S512x4000 .bf16) (r : FVec Ideal S512x64 .bf16) (p : Fin 4000) (k : Fin 64) :
    matmul dot_S512x4000_S512x64_S4000x64_0_0_1_1_n_n none l r (constant S4000x64 .f32 0x00000000#32) (ix2 p k)
      = ∑ g : Fin 512, l (ix2 g p) * r (ix2 g k) :=
  rows_rows_apply dot_S512x4000_S512x64_S4000x64_0_0_1_1_n_n rfl rfl
    (dot_S512x4000_S512x64_S4000x64_0_0_1_1_n_n.lhsIdx_val_of_single rfl)
    (fun i c => by
      unfold DotDims.lhsIdx
      rw [dif_neg (show ¬(1 : Fin S512x4000.rank) ∈ dot_S512x4000_S512x64_S4000x64_0_0_1_1_n_n.lhsBatch by decide),
        dif_pos (show (1 : Fin S512x4000.rank) ∈ dot_S512x4000_S512x64_S4000x64_0_0_1_1_n_n.lhsNonContracting by decide)]
      rfl)
    (dot_S512x4000_S512x64_S4000x64_0_0_1_1_n_n.rhsIdx_val_of_single rfl)
    (fun i c => by
      unfold DotDims.rhsIdx
      rw [dif_neg (show ¬(1 : Fin S512x64.rank) ∈ dot_S512x4000_S512x64_S4000x64_0_0_1_1_n_n.rhsBatch by decide),
        dif_pos (show (1 : Fin S512x64.rank) ∈ dot_S512x4000_S512x64_S4000x64_0_0_1_1_n_n.rhsNonContracting by decide)]
      rfl)
    l r p k

/-! ## Layout operations at an entry -/

/-- Rows `off, off + 1, …` of a matrix, all its columns. -/
theorem slice_rows_apply {α : Type} {R r C : Nat} (off : Nat) (x : (⟨2, ![R, C]⟩ : Shape).Idx → α)
    (h : (⟨2, ![R, C]⟩ : Shape).Slices ![off, 0] ⟨2, ![r, C]⟩) (a : Fin r) (b : Fin C) :
    extractStridedSlice ⟨2, ![r, C]⟩ ![off, 0] x h (ix2 a b)
      = x (ix2 ⟨off + a.val, Nat.lt_of_lt_of_le (Nat.add_lt_add_left a.isLt _) (h.2 0)⟩ b) :=
  extractStridedSlice_apply _ x h _ _ fun c => match c with
    | ⟨0, _⟩ => rfl
    | ⟨1, _⟩ => (Nat.zero_add _).symm

/-- One row of 256 numbers spread over the tile's 4000 rows. -/
theorem spread_row_apply {α : Type} (x : S1x256.Idx → α) (h : S1x256.Broadcasts S4000x256) (p : Fin 4000) (k : Fin 256) :
    broadcastTo S4000x256 x h (ix2 p k) = x (ix2 0 k) :=
  broadcastTo_apply x h _ _ fun a => match a with
    | ⟨0, _⟩ => by show (0 : Nat) = if (1 : Nat) = 1 then 0 else p.val; rw [if_pos rfl]
    | ⟨1, _⟩ => by show k.val = if (256 : Nat) = 1 then 0 else k.val; rw [if_neg (by decide)]

/-- The tile's 4000 graph ids, one row, spread over the table's 512 rows. -/
theorem spread_ids_apply (x : IVec S1x4000 32) (h : S1x4000.Broadcasts S512x4000) (g : Fin 512) (p : Fin 4000) :
    broadcastTo S512x4000 x h (ix2 g p) = x (ix2 0 p) :=
  broadcastTo_apply x h _ _ fun a => match a with
    | ⟨0, _⟩ => by show (0 : Nat) = if (1 : Nat) = 1 then 0 else g.val; rw [if_pos rfl]
    | ⟨1, _⟩ => by show p.val = if (4000 : Nat) = 1 then 0 else p.val; rw [if_neg (by decide)]

/-! ## The tile's arithmetic -/

/-- The number the kernel multiplies row `g` of the table by for edge `p`: the bit "row number g equals the edge's
    graph id", widened to a word and read as a number — 1 or 0. -/
def pickBit (g : Fin 512) (b : BitVec 32) : EReal :=
  ((((IntOp.cmpi .eq (BitVec.ofNat 32 g.val) b).setWidth 32).toInt : ℝ) : EReal)

/-- Entry (g, p) of the 0/1 matrix. -/
theorem onehot_apply (v0 : Vec Ideal S1x1x4000 .i32) (g : Fin 512) (p : Fin 4000) :
    (truncf .bf16 (sitofp (F := Ideal) .f32 (extui 32 (cmpi .eq (iota .tc S512x4000 32 [0] iota_S512x4000_d0_w32)
        (broadcastTo S512x4000 (shapeCast S1x4000 v0 shapeCasts_S1x1x4000_S1x4000) broadcasts_S1x4000_S512x4000)) natLt_1_32))
      bitsLt_bf16_f32 : FVec Ideal S512x4000 .bf16) (ix2 g p) = pickBit g (v0 (ix3 0 0 p)) := by
  show ((((IntOp.cmpi .eq (iota .tc S512x4000 32 [0] iota_S512x4000_d0_w32 (ix2 g p))
      (broadcastTo S512x4000 (shapeCast S1x4000 v0 shapeCasts_S1x1x4000_S1x4000) broadcasts_S1x4000_S512x4000 (ix2 g p))).setWidth 32).toInt : ℝ) : EReal) = _
  rw [iota_single_apply, spread_ids_apply, shapeCast_1ab_ab_apply]
  rfl

/-- The first layer at entry (p, k): the four bands' sums added from the left, the bias, and the maximum with 0. -/
theorem hidden_apply (v0 : Vec Ideal S1x1x4000 .i32) (v8 : Vec Ideal S512x64 .bf16) (v12 v14 : Vec Ideal S4000x128 .f32)
    (v16 : Vec Ideal S4000x64 .f32) (v18 : Vec Ideal S384x256 .bf16) (v20 : Vec Ideal S1x256 .f32) (p : Fin 4000) (k : Fin 256) :
    k0_pay2 (F := Ideal) v0 v8 v12 v14 v16 v18 v20 (ix2 p k)
      = max (((((∑ k' : Fin 128, v12 (ix2 p k') * v18 (ix2 ⟨k'.val, by omega⟩ k))
              + ∑ k' : Fin 128, v14 (ix2 p k') * v18 (ix2 ⟨128 + k'.val, by omega⟩ k))
            + ∑ k' : Fin 64, v16 (ix2 p k') * v18 (ix2 ⟨256 + k'.val, by omega⟩ k))
          + ∑ k' : Fin 64, (∑ g : Fin 512, pickBit g (v0 (ix3 0 0 p)) * v8 (ix2 g k')) * v18 (ix2 ⟨320 + k'.val, by omega⟩ k))
        + v20 (ix2 0 k)) 0 := by
  unfold k0_pay2
  dsimp only
  simp only [shapeCast_self]
  show max ((((matmul (F := Ideal) dot_S4000x128_S128x256_S4000x256_1_0_0_1_n_n none _ _ _ (ix2 p k)
        + matmul (F := Ideal) dot_S4000x128_S128x256_S4000x256_1_0_0_1_n_n none _ _ _ (ix2 p k))
        + matmul (F := Ideal) dot_S4000x64_S64x256_S4000x256_1_0_0_1_n_n none _ _ _ (ix2 p k))
        + matmul (F := Ideal) dot_S4000x64_S64x256_S4000x256_1_0_0_1_n_n none _ _ _ (ix2 p k))
        + broadcastTo S4000x256 v20 broadcasts_S1x256_S4000x256 (ix2 p k)) (Ideal.ofBits .f32 0x00000000#32) = _
  rw [node_apply, node_apply, small_apply, small_apply, spread_row_apply, Ideal.ofBits_zero_f32]
  refine congrArg (fun x => max (x + v20 (ix2 0 k)) 0) ?_
  refine congrArg₂ (· + ·) (congrArg₂ (· + ·) (congrArg₂ (· + ·) ?_ ?_) ?_) ?_
  · refine Finset.sum_congr rfl fun k' _ => ?_
    rw [slice_rows_apply]
    exact congrArg (fun i => v12 (ix2 p k') * v18 (ix2 i k)) (Fin.ext (Nat.zero_add _))
  · refine Finset.sum_congr rfl fun k' _ => ?_
    rw [slice_rows_apply]
    rfl
  · refine Finset.sum_congr rfl fun k' _ => ?_
    rw [slice_rows_apply]
    rfl
  · refine Finset.sum_congr rfl fun k' _ => ?_
    rw [slice_rows_apply]
    refine congrArg₂ (· * ·) ?_ rfl
    show matmul (F := Ideal) (φ₂ := .bf16) dot_S512x4000_S512x64_S4000x64_0_0_1_1_n_n none _ v8 _ (ix2 p k') = _
    rw [pick_apply]
    refine Finset.sum_congr rfl fun g _ => ?_
    rw [onehot_apply]

/-- The tile's result at entry (p, q): row p of the tile through the two layers. The second layer is the product
    with the second weight matrix plus its bias; inside it the first layer, whose four bands' sums are, together,
    the sum over all 384 feature columns (`Cert.EdgeMlp.sum_feat`). -/
theorem tile_apply (v0 : Vec Ideal S1x1x4000 .i32) (v8 : Vec Ideal S512x64 .bf16) (v12 v14 : Vec Ideal S4000x128 .f32)
    (v16 : Vec Ideal S4000x64 .f32) (v18 : Vec Ideal S384x256 .bf16) (v20 : Vec Ideal S1x256 .f32)
    (v38 : Vec Ideal S256x256 .bf16) (v40 : Vec Ideal S1x256 .f32) (p : Fin 4000) (q : Fin 256) :
    k0_pay1 (F := Ideal) (k0_pay2 v0 v8 v12 v14 v16 v18 v20) v38 v40 (ix2 p q)
      = Cert.EdgeMlp.mlp (Cert.EdgeMlp.feat (fun k => v12 (ix2 p k)) (fun k => v14 (ix2 p k)) (fun k => v16 (ix2 p k))
          (fun k => ∑ g : Fin 512, pickBit g (v0 (ix3 0 0 p)) * v8 (ix2 g k)))
        (fun a b => v18 (ix2 a b)) (fun k => v20 (ix2 0 k)) (fun a b => v38 (ix2 a b)) (fun k => v40 (ix2 0 k)) q := by
  unfold k0_pay1
  simp only [shapeCast_self]
  show matmul (F := Ideal) (φ₂ := .bf16) dot_S4000x256_S256x256_S4000x256_1_0_0_1_n_n none _ v38 _ (ix2 p q)
      + broadcastTo S4000x256 v40 broadcasts_S1x256_S4000x256 (ix2 p q) = _
  rw [second_apply, spread_row_apply]
  unfold Cert.EdgeMlp.mlp
  refine congrArg (· + v40 (ix2 0 q)) (Finset.sum_congr rfl fun k _ => ?_)
  refine congrArg (· * v38 (ix2 k q)) ?_
  rw [hidden_apply]
  exact congrArg (fun x => max (x + v20 (ix2 0 k)) 0)
    (Cert.EdgeMlp.sum_feat _ _ _ _ (fun k' => v18 (ix2 k' k))).symm

end Cert.KernelIdeal.Tile

end
-- ==== Proof.KernelWhole.lean ====
/-
  From the tiles to the whole result array.

  The 500000 edges are cut into 125 tiles of 4000; grid point `t` works on tile `t`: rows 4000·t … 4000·t + 3999 of the
  node and edge features, entries 4000·t … of the graph ids (kept as a 125 × 1 × 4000 array of CLIPPED ids, one
  row a tile), and the whole of the table of graph features, of both weight matrices and of both biases. What point
  `t` writes back is therefore tile `t` of ONE array — `Cert.EdgeMlp.out` of the arguments — and the 125 tiles
  cover the array, so that is what the array ends holding.

  The graph ids enter here: the kernel picks the table's row by a 0/1 matrix built from the clipped id, and
  for an id that is not negative that sum over the table's rows is the row `Cert.EdgeMlp.row` names
  (`Cert.EdgeMlp.sum_onehot`). Hence the hypothesis `hb`: every graph id is at least 0.
-/
import proofs.«415689_j48541720379566_3_alg».proof.Proof.Gen.KernelIdeal.Value
import proofs.«415689_j48541720379566_3_alg».proof.Proof.KernelTile
import proofs.«415689_j48541720379566_3_alg».proof.Proof.IndexClamp
import Idealize.ShloMosaic.Lib.StableHlo.Run

set_option maxRecDepth 16384

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The arrays the region finds, where operations of the program wrote them before it -/

/-- The graph ids as the region finds them: clipped into 0 … 511 and laid out one row of 4000 a tile. -/
theorem ids_eq (c : Dev nD) : (V m c main_v1 : S125x1x4000.Idx → BitVec 32)
    = shapeCast S125x1x4000 (minsi (broadcastInDim S500000 ![] bcast_S_S500000 (constantI S_ 32 511#32))
        (maxsi (broadcastInDim S500000 ![] bcast_S_S500000 (constantI S_ 32 0#32)) (m ((c : Thread nD τ).loc main_arg4))))
        shapeCasts_S500000_S125x1x4000 := by
  dsimp only [Gen.V]
  simp only [Gen.hostOps0, Gen.hostOps0_1, Gen.hostOps0_2, List.flatten_cons, List.flatten_nil, List.append_nil, List.cons_append, List.nil_append]
  after_results
  rfl

/-- The table of graph features as the region finds it: a change of float format, nothing on the extended reals. -/
theorem table_eq (c : Dev nD) : (V m c main_v2 : S512x64.Idx → EReal) = m ((c : Thread nD τ).loc main_arg3) := by
  dsimp only [Gen.V]
  simp only [Gen.hostOps0, Gen.hostOps0_1, Gen.hostOps0_2, List.flatten_cons, List.flatten_nil, List.append_nil, List.cons_append, List.nil_append]
  after_results
  rfl

/-- The first weight matrix, likewise. -/
theorem w1_eq (c : Dev nD) : (V m c main_v3 : S384x256.Idx → EReal) = m ((c : Thread nD τ).loc main_arg5) := by
  dsimp only [Gen.V]
  simp only [Gen.hostOps0, Gen.hostOps0_1, Gen.hostOps0_2, List.flatten_cons, List.flatten_nil, List.append_nil, List.cons_append, List.nil_append]
  after_results
  rfl

/-- The second weight matrix, likewise. -/
theorem w2_eq (c : Dev nD) : (V m c main_v4 : S256x256.Idx → EReal) = m ((c : Thread nD τ).loc main_arg7) := by
  dsimp only [Gen.V]
  simp only [Gen.hostOps0, Gen.hostOps0_1, Gen.hostOps0_2, List.flatten_cons, List.flatten_nil, List.append_nil, List.cons_append, List.nil_append]
  after_results
  rfl

/-- The first bias as one row of 256. -/
theorem b1_eq (c : Dev nD) : (V m c main_v5 : S1x256.Idx → EReal)
    = shapeCast S1x256 (m ((c : Thread nD τ).loc main_arg6)) shapeCasts_S256_S1x256 := by
  dsimp only [Gen.V]
  simp only [Gen.hostOps0, Gen.hostOps0_1, Gen.hostOps0_2, List.flatten_cons, List.flatten_nil, List.append_nil, List.cons_append, List.nil_append]
  after_results
  rfl

/-- The second bias as one row of 256. -/
theorem b2_eq (c : Dev nD) : (V m c main_v6 : S1x256.Idx → EReal)
    = shapeCast S1x256 (m ((c : Thread nD τ).loc main_arg8)) shapeCasts_S256_S1x256 := by
  dsimp only [Gen.V]
  simp only [Gen.hostOps0, Gen.hostOps0_1, Gen.hostOps0_2, List.flatten_cons, List.flatten_nil, List.append_nil, List.cons_append, List.nil_append]
  after_results
  rfl

/-! ## Which part of each array a grid point works on -/

/-- The printed index maps, decided over the 125 points: the node, edge and id windows move with the output's tile
    along the edges and never along anything else; the table, the weights and the biases do not move. -/
theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 3) = win0_9.index t (0 : Fin 2) ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (1 : Fin 2) = 0 ∧ win0_9.index t (0 : Fin 2) ≤ 124 :=
  (by decide +kernel : ∀ t : Fin grid0.N, _)

/-- Every tile is some point's. -/
theorem idx_onto : ∀ q0 : Fin 125, ∃ t : Fin cfg0.N, win0_9.index t = ![q0.val, 0] :=
  (by decide +kernel : ∀ q0 : Fin 125, ∃ t : Fin grid0.N, win0_9.index t = ![q0.val, 0])

/-- The edge that row `p` of point `t`'s tile holds: 4000 · (the tile's number) + p. -/
def edgeOf (t : Fin cfg0.N) (p : Fin 4000) : Fin 500000 :=
  ⟨win0_9.index t (0 : Fin 2) * 4000 + 1 * p.val, by
    have h := (idx_facts t).2.2.2.2.2.2.2.2.2.2.2.2.2.2.2.2.2.2.2.2
    have hp := p.isLt
    omega⟩

/-- Entry (p, q) of point `t`'s output tile is entry (edgeOf t p, q) of the array. -/
theorem out_emb (t : Fin cfg0.N) (p : Fin 4000) (q : Fin 256) :
    ((cfg0.win 9).blk t).view.emb (ix2 p q) = ix2 (edgeOf t p) q := by
  have h := (idx_facts t).2.2.2.2.2.2.2.2.2.2.2.2.2.2.2.2.2.2.2.1
  funext a; apply Fin.ext
  match a with
  | ⟨0, _⟩ => rfl
  | ⟨1, _⟩ => show win0_9.index t (1 : Fin 2) * 256 + 1 * q.val = q.val; omega

/-! ## Each window's tile, read at an entry, in terms of the argument arrays -/

section Reads
variable (c : Dev nD) (t : Fin cfg0.N)

/-- The source nodes' features. -/
theorem src_read (p : Fin 4000) (k : Fin 128) :
    iblk m c 0 t (ix2 p k) = m ((c : Thread nD τ).loc main_arg0) (ix2 (edgeOf t p) k) := by
  obtain ⟨h0, h1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 4000 + 1 * p.val = win0_9.index t (0 : Fin 2) * 4000 + 1 * p.val; omega
  | ⟨1, _⟩ => show win0_0.index t (1 : Fin 2) * 128 + 1 * k.val = k.val; omega

/-- The destination nodes' features. -/
theorem dest_read (p : Fin 4000) (k : Fin 128) :
    iblk m c 1 t (ix2 p k) = m ((c : Thread nD τ).loc main_arg1) (ix2 (edgeOf t p) k) := by
  obtain ⟨-, -, h0, h1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 4000 + 1 * p.val = win0_9.index t (0 : Fin 2) * 4000 + 1 * p.val; omega
  | ⟨1, _⟩ => show win0_1.index t (1 : Fin 2) * 128 + 1 * k.val = k.val; omega

/-- The edges' own features. -/
theorem edge_read (p : Fin 4000) (k : Fin 64) :
    iblk m c 2 t (ix2 p k) = m ((c : Thread nD τ).loc main_arg2) (ix2 (edgeOf t p) k) := by
  obtain ⟨-, -, -, -, h0, h1, -⟩ := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 4000 + 1 * p.val = win0_9.index t (0 : Fin 2) * 4000 + 1 * p.val; omega
  | ⟨1, _⟩ => show win0_2.index t (1 : Fin 2) * 64 + 1 * k.val = k.val; omega

/-- The graph id of the edge in row `p` of the tile, as the region finds it: clipped into 0 … 511. -/
theorem id_read (p : Fin 4000) :
    iblk m c 3 t (ix3 (0 : Fin 1) (0 : Fin 1) p)
      = IntOp.minsi 511#32 (IntOp.maxsi 0#32 (m ((c : Thread nD τ).loc main_arg4) (ix1 (edgeOf t p)))) := by
  obtain ⟨-, -, -, -, -, -, h0, h1, h2, -⟩ := idx_facts t
  show (V m c main_v1 : S125x1x4000.Idx → BitVec 32) (((cfg0.win 3).blk t).view.emb (ix3 (0 : Fin 1) (0 : Fin 1) p)) = _
  rw [ids_eq]
  refine (shapeCast_apply _ shapeCasts_S500000_S125x1x4000 _ (ix1 (edgeOf t p)) ?_).trans rfl
  rw [Shape.rowMajor_val_one, Shape.rowMajor_val_three]
  show win0_9.index t (0 : Fin 2) * 4000 + 1 * p.val
    = ((win0_3.index t (0 : Fin 3) * 1 + 1 * 0) * 1 + (win0_3.index t (1 : Fin 3) * 1 + 1 * 0)) * 4000 + (win0_3.index t (2 : Fin 3) * 4000 + 1 * p.val)
  omega

/-- The table of graph features, whole at every point. -/
theorem table_read (g : Fin 512) (k : Fin 64) :
    iblk m c 4 t (ix2 g k) = m ((c : Thread nD τ).loc main_arg3) (ix2 g k) := by
  obtain ⟨-, -, -, -, -, -, -, -, -, h0, h1, -⟩ := idx_facts t
  show (V m c main_v2 : S512x64.Idx → EReal) (((cfg0.win 4).blk t).view.emb (ix2 g k)) = _
  rw [table_eq]
  refine congrArg _ (funext fun a => Fin.ext ?_)
  match a with
  | ⟨0, _⟩ => show win0_4.index t (0 : Fin 2) * 512 + 1 * g.val = g.val; omega
  | ⟨1, _⟩ => show win0_4.index t (1 : Fin 2) * 64 + 1 * k.val = k.val; omega

/-- The first weight matrix, whole at every point. -/
theorem w1_read (a : Fin 384) (b : Fin 256) :
    iblk m c 5 t (ix2 a b) = m ((c : Thread nD τ).loc main_arg5) (ix2 a b) := by
  obtain ⟨-, -, -, -, -, -, -, -, -, -, -, h0, h1, -⟩ := idx_facts t
  show (V m c main_v3 : S384x256.Idx → EReal) (((cfg0.win 5).blk t).view.emb (ix2 a b)) = _
  rw [w1_eq]
  refine congrArg _ (funext fun d => Fin.ext ?_)
  match d with
  | ⟨0, _⟩ => show win0_5.index t (0 : Fin 2) * 384 + 1 * a.val = a.val; omega
  | ⟨1, _⟩ => show win0_5.index t (1 : Fin 2) * 256 + 1 * b.val = b.val; omega

/-- The first bias. -/
theorem b1_read (k : Fin 256) :
    iblk m c 6 t (ix2 (0 : Fin 1) k) = m ((c : Thread nD τ).loc main_arg6) (ix1 k) := by
  obtain ⟨-, -, -, -, -, -, -, -, -, -, -, -, -, h0, h1, -⟩ := idx_facts t
  show (V m c main_v5 : S1x256.Idx → EReal) (((cfg0.win 6).blk t).view.emb (ix2 (0 : Fin 1) k)) = _
  rw [b1_eq]
  refine (shapeCast_apply _ shapeCasts_S256_S1x256 _ (ix1 k) ?_).trans rfl
  rw [Shape.rowMajor_val_one, Shape.rowMajor_val_two]
  show k.val = (win0_6.index t (0 : Fin 2) * 1 + 1 * 0) * 256 + (win0_6.index t (1 : Fin 2) * 256 + 1 * k.val)
  omega

/-- The second weight matrix, whole at every point. -/
theorem w2_read (a : Fin 256) (b : Fin 256) :
    iblk m c 7 t (ix2 a b) = m ((c : Thread nD τ).loc main_arg7) (ix2 a b) := by
  obtain ⟨-, -, -, -, -, -, -, -, -, -, -, -, -, -, -, h0, h1, -⟩ := idx_facts t
  show (V m c main_v4 : S256x256.Idx → EReal) (((cfg0.win 7).blk t).view.emb (ix2 a b)) = _
  rw [w2_eq]
  refine congrArg _ (funext fun d => Fin.ext ?_)
  match d with
  | ⟨0, _⟩ => show win0_7.index t (0 : Fin 2) * 256 + 1 * a.val = a.val; omega
  | ⟨1, _⟩ => show win0_7.index t (1 : Fin 2) * 256 + 1 * b.val = b.val; omega

/-- The second bias. -/
theorem b2_read (k : Fin 256) :
    iblk m c 8 t (ix2 (0 : Fin 1) k) = m ((c : Thread nD τ).loc main_arg8) (ix1 k) := by
  obtain ⟨-, -, -, -, -, -, -, -, -, -, -, -, -, -, -, -, -, h0, h1, -⟩ := idx_facts t
  show (V m c main_v6 : S1x256.Idx → EReal) (((cfg0.win 8).blk t).view.emb (ix2 (0 : Fin 1) k)) = _
  rw [b2_eq]
  refine (shapeCast_apply _ shapeCasts_S256_S1x256 _ (ix1 k) ?_).trans rfl
  rw [Shape.rowMajor_val_one, Shape.rowMajor_val_two]
  show k.val = (win0_8.index t (0 : Fin 2) * 1 + 1 * 0) * 256 + (win0_8.index t (1 : Fin 2) * 256 + 1 * k.val)
  omega

end Reads

/-! ## What every point writes back, and the array after the run -/

/-- What the result array should hold on core `c`: the specification of that core's argument arrays. -/
abbrev spec (c : Dev nD) : S500000x256.Idx → EReal :=
  Cert.EdgeMlp.out (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

theorem hz2 : (![0, 0] : Fin 2 → Nat) = fun _ => 0 := funext fun a => by fin_cases a <;> rfl
theorem hz3 : (![0, 0, 0] : Fin 3 → Nat) = fun _ => 0 := funext fun a => by fin_cases a <;> rfl

/-- Entry `y` of what point `t` computes is the specification at the entry of the array that `y` is: the tile's
    arithmetic is the perceptron of the tile's rows (`Tile.tile_apply`), the tile's rows are the arrays' rows of the
    same edge, and the row of the table picked by the 0/1 matrix is the row the edge's graph id names. -/
theorem point_eq (c : Dev nD) (hb : ∀ i, IntOp.cmpi .sge (m ((c : Thread nD τ).loc main_arg4) i) 0#32 = 1#1) (t : Fin cfg0.N) (y : S4000x256.Idx) :
    k0_pay1 (F := Ideal) (k0_pay2 (iblk m c 3 t) (iblk m c 4 t) (iblk m c 0 t) (iblk m c 1 t) (iblk m c 2 t) (iblk m c 5 t) (iblk m c 6 t))
        (iblk m c 7 t) (iblk m c 8 t) y
      = spec m c (((cfg0.win 9).blk t).view.emb y) := by
  obtain ⟨p, q, rfl⟩ : ∃ (p : Fin 4000) (q : Fin 256), y = ix2 p q := ⟨y 0, y 1, eq_ix2 y⟩
  rw [out_emb]
  refine (Tile.tile_apply (iblk m c 3 t) (iblk m c 4 t) (iblk m c 0 t) (iblk m c 1 t) (iblk m c 2 t) (iblk m c 5 t) (iblk m c 6 t)
    (iblk m c 7 t) (iblk m c 8 t) p q).trans ?_
  have e0 : (fun k : Fin 128 => iblk m c 0 t (ix2 p k)) = fun k => m ((c : Thread nD τ).loc main_arg0) (ix2 (edgeOf t p) k) :=
    funext fun k => src_read m c t p k
  have e1 : (fun k : Fin 128 => iblk m c 1 t (ix2 p k)) = fun k => m ((c : Thread nD τ).loc main_arg1) (ix2 (edgeOf t p) k) :=
    funext fun k => dest_read m c t p k
  have e2 : (fun k : Fin 64 => iblk m c 2 t (ix2 p k)) = fun k => m ((c : Thread nD τ).loc main_arg2) (ix2 (edgeOf t p) k) :=
    funext fun k => edge_read m c t p k
  have e3 : (fun k : Fin 64 => ∑ g : Fin 512, Tile.pickBit g (iblk m c 3 t (ix3 (0 : Fin 1) (0 : Fin 1) p)) * iblk m c 4 t (ix2 g k))
      = fun k => m ((c : Thread nD τ).loc main_arg3) (ix2 (Cert.EdgeMlp.row (m ((c : Thread nD τ).loc main_arg4) (ix1 (edgeOf t p)))) k) := funext fun k => by
    rw [id_read m c t p]
    refine (Finset.sum_congr rfl fun g _ => by rw [table_read m c t g k]).trans ?_
    exact Cert.EdgeMlp.sum_onehot _ (hb _) (fun g => m ((c : Thread nD τ).loc main_arg3) (ix2 g k))
  have e5 : (fun (a : Fin 384) (b : Fin 256) => iblk m c 5 t (ix2 a b)) = fun a b => m ((c : Thread nD τ).loc main_arg5) (ix2 a b) :=
    funext fun a => funext fun b => w1_read m c t a b
  have e6 : (fun k : Fin 256 => iblk m c 6 t (ix2 (0 : Fin 1) k)) = fun k => m ((c : Thread nD τ).loc main_arg6) (ix1 k) :=
    funext fun k => b1_read m c t k
  have e7 : (fun (a : Fin 256) (b : Fin 256) => iblk m c 7 t (ix2 a b)) = fun a b => m ((c : Thread nD τ).loc main_arg7) (ix2 a b) :=
    funext fun a => funext fun b => w2_read m c t a b
  have e8 : (fun k : Fin 256 => iblk m c 8 t (ix2 (0 : Fin 1) k)) = fun k => m ((c : Thread nD τ).loc main_arg8) (ix1 k) :=
    funext fun k => b2_read m c t k
  rw [e0, e1, e2, e3, e5, e6, e7, e8]
  rfl

/-- WHAT POINT `t` WRITES BACK is tile `t` of the specification. -/
theorem flushed_eq (c : Dev nD) (hb : ∀ i, IntOp.cmpi .sge (m ((c : Thread nD τ).loc main_arg4) i) 0#32 = 1#1) (t : Fin cfg0.N) :
    (dats m 0 c).flushed 9 t = ((cfg0.win 9).blk t).view.read (Elt Ideal) (spec m c) := by
  rw [flushed9]
  unfold out0_9
  rw [View.canon_unit_zero hz2]
  simp only [View.ld_unit_zero (S := S1x1x4000) hz3, View.ld_unit_zero (S := S512x64) hz2, View.ld_unit_zero (S := S4000x128) hz2,
    View.ld_unit_zero (S := S4000x64) hz2, View.ld_unit_zero (S := S384x256) hz2, View.ld_unit_zero (S := S1x256) hz2,
    View.ld_unit_zero (S := S256x256) hz2]
  funext y
  exact point_eq m c hb t y

/-- An index of the array is in point `t`'s tile iff each coordinate is in the tile's range on its axis. -/
theorem mem_blk (t : Fin cfg0.N) (i : S500000x256.Idx) :
    i ∈ ((cfg0.win 9).blk t).view.set ↔ ∀ a : Fin 2, win0_9.index t a * S4000x256.size a ≤ (i a).val
      ∧ (i a).val < win0_9.index t a * S4000x256.size a + S4000x256.size a := by
  show i ∈ ((View.whole main_v7).slice (win0_9.rect t)).set ↔ _
  rw [View.set_slice_whole, Rect.mem_set_unit]
  exact Iff.rfl

/-- The tiles cover the array: edge `r` is in tile `r / 4000`. -/
theorem cover (i : S500000x256.Idx) :
    ∃ t : Fin cfg0.N, (cfg0.win 9).flush t = true ∧ i ∈ ((cfg0.win 9).blk t).view.set := by
  have hi0 : (i 0).val < 500000 := (i 0).isLt
  have hi1 : (i 1).val < 256 := (i 1).isLt
  obtain ⟨t, ht⟩ := idx_onto ⟨(i 0).val / 4000, by omega⟩
  have q0 : win0_9.index t (0 : Fin 2) = (i 0).val / 4000 := congrFun ht 0
  have q1 : win0_9.index t (1 : Fin 2) = 0 := congrFun ht 1
  refine ⟨t, flush0_9 t, ?_⟩
  rw [mem_blk]
  intro a
  match a with
  | ⟨0, _⟩ => show win0_9.index t (0 : Fin 2) * 4000 ≤ (i 0).val ∧ (i 0).val < win0_9.index t (0 : Fin 2) * 4000 + 4000; omega
  | ⟨1, _⟩ => show win0_9.index t (1 : Fin 2) * 256 ≤ (i 1).val ∧ (i 1).val < win0_9.index t (1 : Fin 2) * 256 + 256; omega

/-- THE ARRAY after the run is the specification. -/
theorem final (c : Dev nD) (hb : ∀ i, IntOp.cmpi .sge (m ((c : Thread nD τ).loc main_arg4) i) 0#32 = 1#1) :
    (dats m 0 c).arrAt 9 cfg0.N = spec m c :=
  (dats m 0 c).arrAt_eq_of_cover 9 (spec m c) (fun t _ => flushed_eq m c hb t) cover

/-- The kernel's run, read: where every graph id is at least 0, the result array ends at the specification of the
    argument arrays, and the arguments end unchanged. -/
theorem run (hb : ∀ (c : Dev nD) i, IntOp.cmpi .sge (m ((c : Thread nD τ).loc main_arg4) i) 0#32 = 1#1) :
    θ_run defs (onTc (τ := τ) (main (F := Ideal))) ⟨m, fun _ => 0, ρ⟩ fun r => ∀ c : Dev nD,
      r.2.mem ((c : Thread nD τ).loc main_v7) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hb c)), (h c).2⟩) (run_blocks m ρ)

end Cert.KernelIdeal.Whole

end
-- ==== Proof.lean ====
/-
  The certificate's claims, assembled.

  Both programs compute, for every edge of a batch of graphs, a two-layer perceptron of the edge's features laid side
  by side with the global features of the edge's graph (`Proof/EdgeMlp.lean`, the specification `Cert.EdgeMlp.out`).
  They differ in how they find the graph's row in the table of global features: one reads the table at the graph id the
  way an array is indexed (an id below 0 counted from the end, then clamped into the table), the other clips the id
  into the table first and picks the row by a 0/1 matrix. The two agree on every id that is at least 0 and not on ids
  from −511 to −1; the precondition says every id is at least 0 (`Proof/PreDecode.lean` reads that out of it).

  * the kernel's result array is the specification: its arithmetic on one tile of 4000 edges (`Proof/KernelTile.lean`),
    the 125 tiles put together (`Proof/KernelWhole.lean`), the ids' handling (`Proof/IndexClamp.lean`);
  * the reference's result array is the specification (`Proof/RefValue.lean`);
  * so the two results are equal, element by element, as extended reals. No finiteness of the float inputs is used:
    the two programs group the same sums differently, which the extended reals allow, and 0 · x = 0 there for every x.

  Each program runs to the end with its arguments unchanged (the frames): the kernel's by the frame of its one region, the
  reference's by its run. The idealization rewrote nothing in the kernel, so there is nothing for it to preserve.
-/
import proofs.«415689_j48541720379566_3_alg».proof.Defs
import proofs.«415689_j48541720379566_3_alg».proof.Proof.Gen.Kernel
import proofs.«415689_j48541720379566_3_alg».proof.Proof.Gen.Kernel.Skeleton
import proofs.«415689_j48541720379566_3_alg».proof.Proof.Gen.Kernel.Launch
import proofs.«415689_j48541720379566_3_alg».proof.Proof.Gen.Kernel.Points
import proofs.«415689_j48541720379566_3_alg».proof.Proof.Gen.Kernel.Frame
import proofs.«415689_j48541720379566_3_alg».proof.Proof.Gen.KernelIdeal
import proofs.«415689_j48541720379566_3_alg».proof.Proof.Gen.KernelIdeal.Skeleton
import proofs.«415689_j48541720379566_3_alg».proof.Proof.Gen.KernelIdeal.Launch
import proofs.«415689_j48541720379566_3_alg».proof.Proof.Gen.KernelIdeal.Points
import proofs.«415689_j48541720379566_3_alg».proof.Proof.Gen.KernelIdeal.Frame
import proofs.«415689_j48541720379566_3_alg».proof.Proof.Gen.ReferenceIdeal
import proofs.«415689_j48541720379566_3_alg».proof.Proof.Gen.Pre_finite_inputs
import proofs.«415689_j48541720379566_3_alg».proof.Proof.Gen.KernelIdeal.Value
import proofs.«415689_j48541720379566_3_alg».proof.Proof.Gen.ReferenceIdeal.Run
import proofs.«415689_j48541720379566_3_alg».proof.Proof.Gen.ReferenceIdeal.Read
import proofs.«415689_j48541720379566_3_alg».proof.Proof.EdgeMlp
import proofs.«415689_j48541720379566_3_alg».proof.Proof.IndexClamp
import proofs.«415689_j48541720379566_3_alg».proof.Proof.PreDecode
import proofs.«415689_j48541720379566_3_alg».proof.Proof.RefValue
import proofs.«415689_j48541720379566_3_alg».proof.Proof.KernelTile
import proofs.«415689_j48541720379566_3_alg».proof.Proof.KernelWhole
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every graph id of the kernel's memory is at least 0. -/
theorem ids_nonneg (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S500000.Idx) :
    IntOp.cmpi .sge (m ((c.tc : Thread Cert.KernelIdeal.nD Cert.KernelIdeal.τ).loc Cert.KernelIdeal.main_arg4) i) 0#32 = 1#1 :=
  Cert.Pre_finite_inputs.Decode.batch_nonneg _ _ _ _ _ _ _ _ _ (hpre c) i

/-- From memories that agree on the arguments, both programs end with the specification of those arguments in their
    result arrays. -/
theorem algebraic : Cert.algebraic_KernelIdeal_ReferenceIdeal := by
  intro m ρ m' ρ' hpre hagree
  have hb := ids_nonneg m hpre
  refine ⟨fun c => Cert.KernelIdeal.Whole.spec m c, Cert.KernelIdeal.Whole.run m ρ hb, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v16_eq, a0, a1, a2, a3, a4, a5, a6, a7, a8]
  exact Cert.ReferenceIdeal.RefValue.ref_eq _ _ _ _ _ _ _ _ _ (fun i => Cert.EdgeMlp.wrap_of_nonneg _ (hb c i))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
